-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000x48 : Shape := ⟨2, ![1600000, 48]⟩
abbrev S1600000 : Shape := ⟨1, ![1600000]⟩
abbrev S48x48 : Shape := ⟨2, ![48, 48]⟩
abbrev S48 : Shape := ⟨1, ![48]⟩
abbrev S_ : Shape := ⟨0, ![]⟩

class Facts : Prop where
  bcast_S_S1600000x48 : S_.BroadcastsInDim S1600000x48 (![] : Fin 0 → Fin S1600000x48.rank)
  reducesTo_S1600000x48_S_d0_1 : S1600000x48.ReducesTo [0, 1] S_
  h_S_ : 0 < S_.numel
  bcast_S_S48x48 : S_.BroadcastsInDim S48x48 (![] : Fin 0 → Fin S48x48.rank)
  reducesTo_S48x48_S_d0_1 : S48x48.ReducesTo [0, 1] S_
  bcast_S_S48 : S_.BroadcastsInDim S48 (![] : Fin 0 → Fin S48.rank)
  reducesTo_S48_S_d0 : S48.ReducesTo [0] S_

variable [Facts]

def fn {F : FTy → Type} [FloatOps F] (main_arg0 : FVec F S1600000x48 .f32) (main_arg1 : IVec S1600000 32) (main_arg2 : IVec S1600000 32) (main_arg3 : FVec F S48x48 .f32) (main_arg4 : FVec F S48 .f32) : IVec S_ 1 :=
  let main_v0 : FVec F S1600000x48 .f32 := Host.absf main_arg0
  let main_cst : FVec F S_ .f32 := constant S_ .f32 0x7F800000#32
  let main_v1 : FVec F S1600000x48 .f32 := broadcastInDim S1600000x48 ![] bcast_S_S1600000x48 main_cst
  let main_v2 : IVec S1600000x48 1 := cmpf .olt main_v0 main_v1
  let main_c : IVec S_ 1 := constantI S_ 1 1#1
  let main_v3 : IVec S_ 1 := (fun x v => Host.reduce IntOp.andi x v reducesTo_S1600000x48_S_d0_1 h_S_) main_v2 main_c
  let main_v4 : FVec F S48x48 .f32 := Host.absf main_arg3
  let main_cst_0 : FVec F S_ .f32 := constant S_ .f32 0x7F800000#32
  let main_v5 : FVec F S48x48 .f32 := broadcastInDim S48x48 ![] bcast_S_S48x48 main_cst_0
  let main_v6 : IVec S48x48 1 := cmpf .olt main_v4 main_v5
  let main_c_1 : IVec S_ 1 := constantI S_ 1 1#1
  let main_v7 : IVec S_ 1 := (fun x v => Host.reduce IntOp.andi x v reducesTo_S48x48_S_d0_1 h_S_) main_v6 main_c_1
  let main_v8 : IVec S_ 1 := andi main_v3 main_v7
  let main_v9 : FVec F S48 .f32 := Host.absf main_arg4
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  main_v13
-- ==== Kernel.lean ====
abbrev S1600000x48 : Shape := ⟨2, ![1600000, 48]⟩
abbrev S1600000 : Shape := ⟨1, ![1600000]⟩
abbrev S48x48 : Shape := ⟨2, ![48, 48]⟩
abbrev S48 : Shape := ⟨1, ![48]⟩
abbrev S_ : Shape := ⟨0, ![]⟩
abbrev S50000 : Shape := ⟨1, ![50000]⟩
abbrev S1600000x1 : Shape := ⟨2, ![1600000, 1]⟩
abbrev S50000x48 : Shape := ⟨2, ![50000, 48]⟩
abbrev S50000x1 : Shape := ⟨2, ![50000, 1]⟩
abbrev S8000x48 : Shape := ⟨2, ![8000, 48]⟩
abbrev S1x48 : Shape := ⟨2, ![1, 48]⟩

abbrev nBuf : Space → Nat
  | .hbm => 54
  | .vmem => 8
  | .smem => 0
  | _ => 0

abbrev bufTy : (tb : Table) → Fin (tcTables nBuf tb) → BufTy
  | .hbm, ⟨0, _⟩ => ⟨S1600000x48, .f32⟩
  | .hbm, ⟨1, _⟩ => ⟨S1600000, .i32⟩
  | .hbm, ⟨2, _⟩ => ⟨S1600000, .i32⟩
  | .hbm, ⟨3, _⟩ => ⟨S48x48, .f32⟩
  | .hbm, ⟨4, _⟩ => ⟨S48, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S50000, .f32⟩
  | .hbm, ⟨9, _⟩ => ⟨S1600000x1, .i32⟩
  | .hbm, ⟨10, _⟩ => ⟨S50000, .f32⟩
  | .hbm, ⟨11, _⟩ => ⟨S_, .f32⟩
  | .hbm, ⟨12, _⟩ => ⟨S50000x48, .f32⟩
  | .hbm, ⟨13, _⟩ => ⟨S1600000x1, .i32⟩
  | .hbm, ⟨14, _⟩ => ⟨S50000x48, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x48, .f32⟩
  | .hbm, ⟨20, _⟩ => ⟨S50000x48, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x48, .f32⟩
  | .hbm, ⟨30, _⟩ => ⟨S_, .f32⟩
  | .hbm, ⟨31, _⟩ => ⟨S50000x48, .f32⟩
  | .hbm, ⟨32, _⟩ => ⟨S1600000x1, .i32⟩
  | .hbm, ⟨33, _⟩ => ⟨S50000x48, .f32⟩
  | .hbm, ⟨34, _⟩ => ⟨S50000x48, .bf16⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x48, .bf16⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x48, .bf16⟩
  | .hbm, ⟨53, _⟩ => ⟨S1600000x48, .f32⟩
  | .local _ .vmem, ⟨0, _⟩ => ⟨S8000x48, .bf16⟩
  | .local _ .vmem, ⟨1, _⟩ => ⟨S8000x48, .bf16⟩
  | .local _ .vmem, ⟨2, _⟩ => ⟨S8000x48, .bf16⟩
  | .local _ .vmem, ⟨3, _⟩ => ⟨S8000x48, .bf16⟩
  | .local _ .vmem, ⟨4, _⟩ => ⟨S48x48, .f32⟩
  | .local _ .vmem, ⟨5, _⟩ => ⟨S48, .f32⟩
  | .local _ .vmem, ⟨6, _⟩ => ⟨S8000x48, .f32⟩
  | .local _ .vmem, ⟨7, _⟩ => ⟨S8000x48, .f32⟩
  | _, _ => ⟨S1600000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_5 : Ref sig .tc := ⟨.hbm, 35, rfl⟩
abbrev main_v23 : Ref sig .tc := ⟨.hbm, 36, rfl⟩
abbrev main_v24 : Ref sig .tc := ⟨.hbm, 37, rfl⟩
abbrev main_c_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_7 : Ref sig .tc := ⟨.hbm, 44, rfl⟩
abbrev main_v30 : Ref sig .tc := ⟨.hbm, 45, rfl⟩
abbrev main_v31 : Ref sig .tc := ⟨.hbm, 46, rfl⟩
abbrev main_c_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x48 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x48 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x48 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x48 : S_.BroadcastsInDim S50000x48 (![] : Fin 0 → Fin S50000x48.rank)
  bcast_S50000_S50000x1_0 : S50000.BroadcastsInDim S50000x1 (![0] : Fin 1 → Fin S50000x1.rank)
  bcast_S50000x1_S50000x48_0_1 : S50000x1.BroadcastsInDim S50000x48 (![0, 1] : Fin 2 → Fin S50000x48.rank)
  bitsLt_bf16_f32 : FTy.bits .bf16 < FTy.bits .f32
  inb_S8000x48_S8000x48_0_0 : ∀ a, (![0, 0] : Fin 2 → Nat) a + S8000x48.size a ≤ S8000x48.size a
  h_S8000x48 : 0 < S8000x48.numel
  shapeCasts_S8000x48_S8000x48 : S8000x48.ShapeCasts S8000x48
  inb_S48x48_S48x48_0_0 : ∀ a, (![0, 0] : Fin 2 → Nat) a + S48x48.size a ≤ S48x48.size a
  h_S48x48 : 0 < S48x48.numel
  inb_S48_S48_0 : ∀ a, (![0] : Fin 1 → Nat) a + S48.size a ≤ S48.size a
  h_S48 : 0 < S48.numel
  shapeCasts_S48_S1x48 : S48.ShapeCasts S1x48
  broadcasts_S1x48_S8000x48 : S1x48.Broadcasts S8000x48
  scatter_S50000_S1600000x1_S1600000_n_0_0_1_wf : ScatterDims.WF S50000 S1600000x1 S1600000 [] [0] [0] 1
  scatter_S50000x48_S1600000x1_S1600000x48_1_0_0_1_wf : ScatterDims.WF S50000x48 S1600000x1 S1600000x48 [1] [0] [0] 1
  gather_S50000x48_S1600000x1_S1600000x48_1_0_n_n_0_1_148_wf : GatherDims.WF S50000x48 S1600000x1 S1600000x48 [1] [0] [] [0] [] 1 ![1, 48]
  dot_S8000x48_S48x48_S8000x48_1_1_0_0_n_n_wf : DotDims.WF S8000x48 S48x48 S8000x48 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x48.size a ≤ S1600000x48.size a
  hwx0_0 : ∀ i : grid0.Coords, EltTy.bits .bf16 = 32 ∨ (Rect.block (s := S1600000x48) S8000x48.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x48.size a ≤ S1600000x48.size a
  hwx0_1 : ∀ i : grid0.Coords, EltTy.bits .bf16 = 32 ∨ (Rect.block (s := S1600000x48) S8000x48.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S48x48.size a ≤ S48x48.size a
  hwx0_2 : ∀ i : grid0.Coords, EltTy.bits .f32 = 32 ∨ (Rect.block (s := S48x48) S48x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S48.size a ≤ S48.size a
  hwx0_3 : ∀ i : grid0.Coords, EltTy.bits .f32 = 32 ∨ (Rect.block (s := S48) S48.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x48.size a ≤ S1600000x48.size a
  hwx0_4 : ∀ i : grid0.Coords, EltTy.bits .f32 = 32 ∨ (Rect.block (s := S1600000x48) S8000x48.size (cc0_transform_4 i) (hinb0_4 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000x48_S1600000x1_S1600000x48_1_0_0_1 : ScatterDims S50000x48 S1600000x1 S1600000x48 where
  updateWindowDims := [1]
  insertedWindowDims := [0]
  scatterDimsToOperandDims := [0]
  indexVectorDim := 1
  wf := scatter_S50000x48_S1600000x1_S1600000x48_1_0_0_1_wf
def gather_S50000x48_S1600000x1_S1600000x48_1_0_n_n_0_1_148 : GatherDims S50000x48 S1600000x1 S1600000x48 where
  offsetDims := [1]
  collapsedSliceDims := [0]
  operandBatchingDims := []
  startIndicesBatchingDims := []
  startIndexMap := [0]
  indexVectorDim := 1
  sliceSizes := ![1, 48]
  wf := gather_S50000x48_S1600000x1_S1600000x48_1_0_n_n_0_1_148_wf
def dot_S8000x48_S48x48_S8000x48_1_1_0_0_n_n : DotDims S8000x48 S48x48 S8000x48 where
  lhsContracting := [1]
  rhsContracting := [1]
  lhsNonContracting := [0]
  rhsNonContracting := [0]
  lhsBatch := []
  rhsBatch := []
  wf := dot_S8000x48_S48x48_S8000x48_1_1_0_0_n_n_wf

abbrev win0_0 : Pipeline.Window sig grid0 :=
  Pipeline.Window.ofSpec (Memref.whole main_v29) S8000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v36) S8000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S48x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S8000x48.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1600000x48 : Shape := ⟨2, ![1600000, 48]⟩
abbrev S1600000 : Shape := ⟨1, ![1600000]⟩
abbrev S48x48 : Shape := ⟨2, ![48, 48]⟩
abbrev S48 : Shape := ⟨1, ![48]⟩
abbrev S_ : Shape := ⟨0, ![]⟩
abbrev S50000 : Shape := ⟨1, ![50000]⟩
abbrev S1600000x1 : Shape := ⟨2, ![1600000, 1]⟩
abbrev S50000x48 : Shape := ⟨2, ![50000, 48]⟩
abbrev S50000x1 : Shape := ⟨2, ![50000, 1]⟩
abbrev S1x48 : Shape := ⟨2, ![1, 48]⟩

abbrev nBuf : Space → Nat
  | .hbm => 61
  | .vmem => 0
  | .smem => 0
  | _ => 0

abbrev bufTy : (tb : Table) → Fin (tcTables nBuf tb) → BufTy
  | .hbm, ⟨0, _⟩ => ⟨S1600000x48, .f32⟩
  | .hbm, ⟨1, _⟩ => ⟨S1600000, .i32⟩
  | .hbm, ⟨2, _⟩ => ⟨S1600000, .i32⟩
  | .hbm, ⟨3, _⟩ => ⟨S48x48, .f32⟩
  | .hbm, ⟨4, _⟩ => ⟨S48, .f32⟩
  | .hbm, ⟨5, _⟩ => ⟨S_, .f32⟩
  | .hbm, ⟨6, _⟩ => ⟨S1600000, .f32⟩
  | .hbm, ⟨7, _⟩ => ⟨S_, .f32⟩
  | .hbm, ⟨8, _⟩ => ⟨S50000, .f32⟩
  | .hbm, ⟨9, _⟩ => ⟨S1600000x1, .i32⟩
  | .hbm, ⟨10, _⟩ => ⟨S50000, .f32⟩
  | .hbm, ⟨11, _⟩ => ⟨S_, .f32⟩
  | .hbm, ⟨12, _⟩ => ⟨S50000x48, .f32⟩
  | .hbm, ⟨13, _⟩ => ⟨S1600000x1, .i32⟩
  | .hbm, ⟨14, _⟩ => ⟨S50000x48, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x48, .f32⟩
  | .hbm, ⟨20, _⟩ => ⟨S50000x48, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x48, .f32⟩
  | .hbm, ⟨30, _⟩ => ⟨S_, .f32⟩
  | .hbm, ⟨31, _⟩ => ⟨S50000x48, .f32⟩
  | .hbm, ⟨32, _⟩ => ⟨S1600000x1, .i32⟩
  | .hbm, ⟨33, _⟩ => ⟨S50000x48, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x48, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x48, .f32⟩
  | .hbm, ⟨52, _⟩ => ⟨S1600000x48, .f32⟩
  | .hbm, ⟨53, _⟩ => ⟨S_, .f32⟩
  | .hbm, ⟨54, _⟩ => ⟨S1600000x48, .f32⟩
  | .hbm, ⟨55, _⟩ => ⟨S1600000x48, .f32⟩
  | .hbm, ⟨56, _⟩ => ⟨S48x48, .f32⟩
  | .hbm, ⟨57, _⟩ => ⟨S1600000x48, .f32⟩
  | .hbm, ⟨58, _⟩ => ⟨S1x48, .f32⟩
  | .hbm, ⟨59, _⟩ => ⟨S1600000x48, .f32⟩
  | .hbm, ⟨60, _⟩ => ⟨S1600000x48, .f32⟩
  | _, _ => ⟨S1600000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_c_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_7 : Ref sig .tc := ⟨.hbm, 43, rfl⟩
abbrev main_v29 : Ref sig .tc := ⟨.hbm, 44, rfl⟩
abbrev main_v30 : Ref sig .tc := ⟨.hbm, 45, rfl⟩
abbrev main_c_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S_S50000x48 : S_.BroadcastsInDim S50000x48 (![] : Fin 0 → Fin S50000x48.rank)
  bcast_S50000_S50000x1_0 : S50000.BroadcastsInDim S50000x1 (![0] : Fin 1 → Fin S50000x1.rank)
  bcast_S50000x1_S50000x48_0_1 : S50000x1.BroadcastsInDim S50000x48 (![0, 1] : Fin 2 → Fin S50000x48.rank)
  bcast_S_S1600000x48 : S_.BroadcastsInDim S1600000x48 (![] : Fin 0 → Fin S1600000x48.rank)
  transposes_S48x48_S48x48_1_0 : S48x48.Transposes [1, 0] S48x48
  bcast_S48_S1x48_1 : S48.BroadcastsInDim S1x48 (![1] : Fin 1 → Fin S1x48.rank)
  bcast_S1x48_S1600000x48_0_1 : S1x48.BroadcastsInDim S1600000x48 (![0, 1] : Fin 2 → Fin S1600000x48.rank)
  scatter_S50000_S1600000x1_S1600000_n_0_0_1_wf : ScatterDims.WF S50000 S1600000x1 S1600000 [] [0] [0] 1
  scatter_S50000x48_S1600000x1_S1600000x48_1_0_0_1_wf : ScatterDims.WF S50000x48 S1600000x1 S1600000x48 [1] [0] [0] 1
  gather_S50000x48_S1600000x1_S1600000x48_1_0_n_n_0_1_148_wf : GatherDims.WF S50000x48 S1600000x1 S1600000x48 [1] [0] [] [0] [] 1 ![1, 48]
  dot_S1600000x48_S48x48_S1600000x48_1_0_0_1_n_n_wf : DotDims.WF S1600000x48 S48x48 S1600000x48 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def scatter_S50000x48_S1600000x1_S1600000x48_1_0_0_1 : ScatterDims S50000x48 S1600000x1 S1600000x48 where
  updateWindowDims := [1]
  insertedWindowDims := [0]
  scatterDimsToOperandDims := [0]
  indexVectorDim := 1
  wf := scatter_S50000x48_S1600000x1_S1600000x48_1_0_0_1_wf
def gather_S50000x48_S1600000x1_S1600000x48_1_0_n_n_0_1_148 : GatherDims S50000x48 S1600000x1 S1600000x48 where
  offsetDims := [1]
  collapsedSliceDims := [0]
  operandBatchingDims := []
  startIndicesBatchingDims := []
  startIndexMap := [0]
  indexVectorDim := 1
  sliceSizes := ![1, 48]
  wf := gather_S50000x48_S1600000x1_S1600000x48_1_0_n_n_0_1_148_wf
def dot_S1600000x48_S48x48_S1600000x48_1_0_0_1_n_n : DotDims S1600000x48 S48x48 S1600000x48 where
  lhsContracting := [1]
  rhsContracting := [0]
  lhsNonContracting := [0]
  rhsNonContracting := [1]
  lhsBatch := []
  rhsBatch := []
  wf := dot_S1600000x48_S48x48_S1600000x48_1_0_0_1_n_n_wf

class Facts : Prop extends Facts₀ where

variable [Facts]
-- ==== Proof.EdgeLinear.lean ====
/-
  The edge-level map both programs end with, over the extended reals.

  Every edge `e` carries two rows of 48 node features, `A[e, ·]` (the features gathered at the edge's source) and
  `B[e, ·]` (those gathered at its target). With a 48 × 48 weight `W` and a bias `b` the result is
      out[e, o] = Σ_k ((A[e, k] + B[e, k]) · ½) · W[o, k] + b[o].
  The kernel computes it tile by tile in exactly this form. The reference writes the mean as `½ · (A + B)` and
  contracts against the transposed weight `Wᵀ[k, o]`; the two differ only in the order of the factors of one product,
  and the product of extended reals is commutative at every value, the infinities included. Nothing here needs the
  inputs to be finite.
-/
import Idealize.ShloMosaic.PureOps.Ideal
import Idealize.ShloMosaic.PureOps.Ideal.Laws
import Idealize.ShloMosaic.Lib.ValueIdx

noncomputable section

namespace Cert.EdgeLinear

open Idealize.ShloMosaic Idealize.ShloMosaic.ValueIdx

/-- The f32 word `0x3F000000` read as an extended real: the factor ½ of the mean. It is the same word in both
    programs, so its value is never computed. -/
abbrev half : EReal := Ideal.ofBits .f32 0x3F000000#32

/-- One entry of the result: from the two endpoints' feature rows `a`, `b`, one row `w` of the weight and one bias
    entry `β`, the sum over the 48 features of `((a k + b k) · ½) · w k`, plus `β`. -/
def entry (a b w : Fin 48 → EReal) (β : EReal) : EReal :=
  (∑ k : Fin 48, ((a k + b k) * half) * w k) + β

/-- The same entry with the factor ½ written on the left of the mean, as the reference has it. -/
theorem entry_half_left (a b w : Fin 48 → EReal) (β : EReal) :
    (∑ k : Fin 48, (half * (a k + b k)) * w k) + β = entry a b w β := by
  unfold entry
  exact congrArg (· + β) (Finset.sum_congr rfl fun k _ => by rw [mul_comm half])

/-- The whole result, one function of the two gathered arrays, the weight and the bias: entry `(e, o)` reads row `e`
    of both arrays, row `o` of the weight and entry `o` of the bias. -/
def whole (A B : (⟨2, ![1600000, 48]⟩ : Shape).Idx → EReal) (W : (⟨2, ![48, 48]⟩ : Shape).Idx → EReal)
    (b : (⟨1, ![48]⟩ : Shape).Idx → EReal) : (⟨2, ![1600000, 48]⟩ : Shape).Idx → EReal :=
  fun i => entry (fun k => A (ix2 (i 0) k)) (fun k => B (ix2 (i 0) k)) (fun k => W (ix2 (i 1) k)) (b (ix1 (i 1)))

/-- The result read at explicit coordinates. -/
theorem whole_apply (A B : (⟨2, ![1600000, 48]⟩ : Shape).Idx → EReal) (W : (⟨2, ![48, 48]⟩ : Shape).Idx → EReal)
    (b : (⟨1, ![48]⟩ : Shape).Idx → EReal) (e : Fin 1600000) (o : Fin 48) :
    whole A B W b (ix2 e o)
      = entry (fun k => A (ix2 e k)) (fun k => B (ix2 e k)) (fun k => W (ix2 o k)) (b (ix1 o)) := rfl

end Cert.EdgeLinear

end
-- ==== Proof.TilePayload.lean ====
/-
  What the kernel body stores for one tile of 8000 edges, read at one entry.

  The body loads the tile's two blocks of gathered features `x0`, `x1` (8000 × 48), the weight `w` (48 × 48) and the
  bias `bb` (48), forms `(x0 + x1) · ½`, contracts it with `w` over the feature axis of BOTH operands (so entry
  `(p, q)` pairs row `p` of the mean with row `q` of the weight), and adds the bias along the rows. Over the extended
  reals the changes of float format are the identity, the matrix product into a zero accumulator is the plain sum of
  products, and so the stored entry `(p, q)` is `EdgeLinear.entry` of rows `p` of the blocks, row `q` of the weight
  and entry `q` of the bias.
-/
import proofs.«109166_j27986006901492_1_alg».proof.Proof.Gen.KernelIdeal.Skeleton
import proofs.«109166_j27986006901492_1_alg».proof.Proof.EdgeLinear
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.EdgeLinear

/-! ## The operand indices of the tile's contraction -/

/-- The left operand is read at the output's row … -/
theorem lhs_row (i : S8000x48.Idx) (q : dot_S8000x48_S48x48_S8000x48_1_1_0_0_n_n.contr.Idx) :
    (dot_S8000x48_S48x48_S8000x48_1_1_0_0_n_n.lhsIdx i q 0).val = (i 0).val := by
  unfold DotDims.lhsIdx
  rw [dif_neg (show ¬(0 : Fin S8000x48.rank) ∈ dot_S8000x48_S48x48_S8000x48_1_1_0_0_n_n.lhsBatch by decide), dif_pos (show (0 : Fin S8000x48.rank) ∈ dot_S8000x48_S48x48_S8000x48_1_1_0_0_n_n.lhsNonContracting by decide)]
  rfl
/-- … and at the contracted feature. -/
theorem lhs_feat (i : S8000x48.Idx) (q : dot_S8000x48_S48x48_S8000x48_1_1_0_0_n_n.contr.Idx) :
    (dot_S8000x48_S48x48_S8000x48_1_1_0_0_n_n.lhsIdx i q 1).val = (q ⟨0, by decide⟩).val :=
  dot_S8000x48_S48x48_S8000x48_1_1_0_0_n_n.lhsIdx_val_of_single rfl i q
/-- The right operand, the weight, is read at the row named by the output's COLUMN … -/
theorem rhs_row (i : S8000x48.Idx) (q : dot_S8000x48_S48x48_S8000x48_1_1_0_0_n_n.contr.Idx) :
    (dot_S8000x48_S48x48_S8000x48_1_1_0_0_n_n.rhsIdx i q 0).val = (i 1).val := by
  unfold DotDims.rhsIdx
  rw [dif_neg (show ¬(0 : Fin S48x48.rank) ∈ dot_S8000x48_S48x48_S8000x48_1_1_0_0_n_n.rhsBatch by decide), dif_pos (show (0 : Fin S48x48.rank) ∈ dot_S8000x48_S48x48_S8000x48_1_1_0_0_n_n.rhsNonContracting by decide)]
  rfl
/-- … and at the contracted feature: both operands are contracted over their second axis. -/
theorem rhs_feat (i : S8000x48.Idx) (q : dot_S8000x48_S48x48_S8000x48_1_1_0_0_n_n.contr.Idx) :
    (dot_S8000x48_S48x48_S8000x48_1_1_0_0_n_n.rhsIdx i q 1).val = (q ⟨0, by decide⟩).val :=
  dot_S8000x48_S48x48_S8000x48_1_1_0_0_n_n.rhsIdx_val_of_single rfl i q

/-- The tile's matrix product into a zero accumulator, at entry `(p, q)`: the sum over the 48 features of the left
    operand's row `p` times the right operand's row `q`. -/
theorem matmul_at (l : FVec Ideal S8000x48 .bf16) (r : FVec Ideal S48x48 .bf16) (p : Fin 8000) (q : Fin 48) :
    matmul dot_S8000x48_S48x48_S8000x48_1_1_0_0_n_n none l r (constant S8000x48 .f32 0x00000000#32) (ix2 p q)
      = ∑ k : Fin 48, l (ix2 p k) * r (ix2 q k) := by
  simp only [matmul]
  rw [Ideal.matmul_constant_zero_apply, ← Equiv.sum_comp (contrEquiv1 dot_S8000x48_S48x48_S8000x48_1_1_0_0_n_n 48 rfl rfl).symm]
  refine Finset.sum_congr rfl fun k _ => ?_
  have hk := contrEquiv1_symm_val dot_S8000x48_S48x48_S8000x48_1_1_0_0_n_n 48 rfl rfl k
  have el : dot_S8000x48_S48x48_S8000x48_1_1_0_0_n_n.lhsIdx (ix2 p q) ((contrEquiv1 dot_S8000x48_S48x48_S8000x48_1_1_0_0_n_n 48 rfl rfl).symm k) = ix2 p k := funext fun a => Fin.ext (by
    match a with
    | ⟨0, _⟩ => exact lhs_row _ _
    | ⟨1, _⟩ => exact (lhs_feat _ _).trans hk)
  have er : dot_S8000x48_S48x48_S8000x48_1_1_0_0_n_n.rhsIdx (ix2 p q) ((contrEquiv1 dot_S8000x48_S48x48_S8000x48_1_1_0_0_n_n 48 rfl rfl).symm k) = ix2 q k := funext fun a => Fin.ext (by
    match a with
    | ⟨0, _⟩ => exact rhs_row _ _
    | ⟨1, _⟩ => exact (rhs_feat _ _).trans hk)
  rw [el, er]

/-- The stored value at entry `(p, q)` of a tile. -/
theorem payload_at (x0 x1 : FVec Ideal S8000x48 .bf16) (w : FVec Ideal S48x48 .f32) (bb : FVec Ideal S48 .f32)
    (p : Fin 8000) (q : Fin 48) :
    k0_pay1 (F := Ideal) x0 x1 w bb (ix2 p q)
      = entry (fun k => x0 (ix2 p k)) (fun k => x1 (ix2 p k)) (fun k => w (ix2 q k)) (bb (ix1 q)) := by
  unfold k0_pay1 entry
  dsimp only
  rw [addf_apply, matmul_at, broadcastTo_1b_ab_apply, shapeCast_a_1a_apply]
  simp only [shapeCast_self]
  rfl

end Cert.KernelIdeal.Tile

end
-- ==== Proof.KernelWhole.lean ====
/-
  From tiles to the whole array.

  The kernel's grid has 200 points; point `t` works on the tile of edges `8000·t … 8000·t + 7999`: it is handed rows
  `8000·t + p` of the two gathered arrays, the whole weight and the whole bias, and writes back rows `8000·t + p` of
  the result. By `Tile.payload_at` what it writes at `(p, q)` is `EdgeLinear.entry` of those rows, which is entry
  `(8000·t + p, q)` of `EdgeLinear.whole` of the arrays as the kernel finds them. The 200 tiles cover every row
  (row `r` lies in tile `r / 8000`), so after the run the result array is `EdgeLinear.whole` of those arrays.
-/
import proofs.«109166_j27986006901492_1_alg».proof.Proof.Gen.KernelIdeal.Value
import proofs.«109166_j27986006901492_1_alg».proof.Proof.TilePayload
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.EdgeLinear
open Idealize.ShloMosaic.Pipeline (Dat)

variable (m : (ℓ : Loc nD τ sig) → Buf (Elt Ideal) ℓ) (ρ : Dev nD → PrngReg)

theorem zero_off2 : (![0, 0] : Fin 2 → Nat) = fun _ => 0 := funext fun a => by fin_cases a <;> rfl
theorem zero_off1 : (![0] : Fin 1 → Nat) = fun _ => 0 := funext fun a => by fin_cases a <;> rfl

/-- The printed index maps over the 200 points: the two gathered arrays and the result move together, one block of
    rows per point; the weight and the bias stay at block 0. -/
theorem block_indices : ∀ t : Fin cfg0.N,
    win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0 :=
  (by decide +kernel : ∀ t : Fin grid0.N, _)

/-! ## What each window's block reads, for ANY contents of its array -/

/-- Point `t`'s block of the array gathered at the sources is rows `8000·t + p` of it. -/
theorem src_block_read (t : Fin cfg0.N) (X : S1600000x48.Idx → EReal) (p : Fin 8000) (k : Fin 48) (r : Fin 1600000)
    (hr : r.val = t.val * 8000 + p.val) :
    (((cfg0.win 0).blk t).view.read (Elt Ideal) X (ix2 p k) : EReal) = X (ix2 r k) := by
  obtain ⟨-, -, e00, e01, -⟩ := block_indices t
  show X (((cfg0.win 0).blk t).view.emb (ix2 p k)) = X (ix2 r k)
  refine congrArg X ?_
  funext a; apply Fin.ext
  match a with
  | ⟨0, _⟩ => show win0_0.index t (0 : Fin 2) * 8000 + 1 * p.val = r.val; omega
  | ⟨1, _⟩ => show win0_0.index t (1 : Fin 2) * 48 + 1 * k.val = k.val; omega

/-- The same for the array gathered at the targets. -/
theorem dst_block_read (t : Fin cfg0.N) (X : S1600000x48.Idx → EReal) (p : Fin 8000) (k : Fin 48) (r : Fin 1600000)
    (hr : r.val = t.val * 8000 + p.val) :
    (((cfg0.win 1).blk t).view.read (Elt Ideal) X (ix2 p k) : EReal) = X (ix2 r k) := by
  obtain ⟨-, -, -, -, e10, e11, -⟩ := block_indices t
  show X (((cfg0.win 1).blk t).view.emb (ix2 p k)) = X (ix2 r k)
  refine congrArg X ?_
  funext a; apply Fin.ext
  match a with
  | ⟨0, _⟩ => show win0_1.index t (0 : Fin 2) * 8000 + 1 * p.val = r.val; omega
  | ⟨1, _⟩ => show win0_1.index t (1 : Fin 2) * 48 + 1 * k.val = k.val; omega

/-- Every point's block of the weight is the whole weight. -/
theorem weight_block_read (t : Fin cfg0.N) (X : S48x48.Idx → EReal) (q k : Fin 48) :
    (((cfg0.win 2).blk t).view.read (Elt Ideal) X (ix2 q k) : EReal) = X (ix2 q k) := by
  obtain ⟨-, -, -, -, -, -, e20, e21, -⟩ := block_indices t
  show X (((cfg0.win 2).blk t).view.emb (ix2 q k)) = X (ix2 q k)
  refine congrArg X ?_
  funext a; apply Fin.ext
  match a with
  | ⟨0, _⟩ => show win0_2.index t (0 : Fin 2) * 48 + 1 * q.val = q.val; omega
  | ⟨1, _⟩ => show win0_2.index t (1 : Fin 2) * 48 + 1 * k.val = k.val; omega

/-- Every point's block of the bias is the whole bias. -/
theorem bias_block_read (t : Fin cfg0.N) (X : S48.Idx → EReal) (q : Fin 48) :
    (((cfg0.win 3).blk t).view.read (Elt Ideal) X (ix1 q) : EReal) = X (ix1 q) := by
  obtain ⟨-, -, -, -, -, -, -, -, e30⟩ := block_indices t
  show X (((cfg0.win 3).blk t).view.emb (ix1 q)) = X (ix1 q)
  refine congrArg X ?_
  funext a; apply Fin.ext
  match a with
  | ⟨0, _⟩ => show win0_3.index t (0 : Fin 1) * 48 + 1 * q.val = q.val; omega

/-- What a point stores at an entry of its tile is the entry of `EdgeLinear.whole` at the tile's place in the array,
    for ANY blocks and arrays such that the blocks are the point's rows of the arrays. -/
theorem tile_entry (t : Fin cfg0.N)
    (x0 x1 : FVec Ideal S8000x48 .bf16) (w : FVec Ideal S48x48 .f32) (bb : FVec Ideal S48 .f32)
    (A B : S1600000x48.Idx → EReal) (W : S48x48.Idx → EReal) (b : S48.Idx → EReal)
    (hA : ∀ (p : Fin 8000) (k : Fin 48) (r : Fin 1600000), r.val = t.val * 8000 + p.val → x0 (ix2 p k) = A (ix2 r k))
    (hB : ∀ (p : Fin 8000) (k : Fin 48) (r : Fin 1600000), r.val = t.val * 8000 + p.val → x1 (ix2 p k) = B (ix2 r k))
    (hW : ∀ q k : Fin 48, w (ix2 q k) = W (ix2 q k)) (hb : ∀ q : Fin 48, bb (ix1 q) = b (ix1 q))
    (j : ((cfg0.win 4).xblock (grid0.coords t)).Idx) :
    (cfg0.win 4).cut (grid0.coords t) (k0_pay1 (F := Ideal) x0 x1 w bb) j
      = ((cfg0.win 4).blk t).view.read (Elt Ideal) (whole A B W b) j := by
  obtain ⟨e40, e41, -⟩ := block_indices t
  obtain ⟨p, q, rfl⟩ : ∃ (p : Fin 8000) (q : Fin 48), j = ix2 p q := ⟨j 0, j 1, eq_ix2 j⟩
  have hN : cfg0.N = 200 := N_0
  have hr : t.val * 8000 + p.val < 1600000 := by have := t.isLt; have := p.isLt; omega
  have hi : ((cfg0.win 4).blk t).view.emb (ix2 p q) = ix2 (⟨t.val * 8000 + p.val, hr⟩ : Fin 1600000) q :=
    funext fun a => Fin.ext (by
      match a with
      | ⟨0, _⟩ => show win0_4.index t (0 : Fin 2) * 8000 + 1 * p.val = t.val * 8000 + p.val; omega
      | ⟨1, _⟩ => show win0_4.index t (1 : Fin 2) * 48 + 1 * q.val = q.val; omega)
  show k0_pay1 (F := Ideal) x0 x1 w bb (ix2 p q) = whole A B W b (((cfg0.win 4).blk t).view.emb (ix2 p q))
  rw [hi, whole_apply, Tile.payload_at]
  have eA : (fun k : Fin 48 => x0 (ix2 p k)) = fun k => A (ix2 (⟨t.val * 8000 + p.val, hr⟩ : Fin 1600000) k) :=
    funext fun k => hA p k _ rfl
  have eB : (fun k : Fin 48 => x1 (ix2 p k)) = fun k => B (ix2 (⟨t.val * 8000 + p.val, hr⟩ : Fin 1600000) k) :=
    funext fun k => hB p k _ rfl
  have eW : (fun k : Fin 48 => w (ix2 q k)) = fun k => W (ix2 q k) := funext fun k => hW q k
  rw [eA, eB, eW, hb q]

/-! ## The arrays as the kernel finds them, and the result -/

/-- What the result array ends holding: `EdgeLinear.whole` of the two gathered arrays, the weight and the bias as
    the kernel finds them. -/
abbrev result (c : Dev nD) : S1600000x48.Idx → EReal :=
  whole (V m c (Pipeline.arrRef spec0 0)) (V m c (Pipeline.arrRef spec0 1)) (V m c (Pipeline.arrRef spec0 2))
    (V m c (Pipeline.arrRef spec0 3))

/-- What point `t` writes back is its block of rows of `result`. -/
theorem flushed_eq (c : Dev nD) (t : Fin cfg0.N) :
    (dats m 0 c).flushed 4 t = ((cfg0.win 4).blk t).view.read (Elt Ideal) (result m c) := by
  rw [flushed4]
  unfold out0_4
  rw [View.canon_unit_zero zero_off2]
  simp only [View.ld_unit_zero (S := S8000x48) zero_off2, View.ld_unit_zero (S := S48x48) zero_off2,
    View.ld_unit_zero (S := S48) zero_off1]
  funext j
  exact tile_entry t (iblk m c 0 t) (iblk m c 1 t) (iblk m c 2 t) (iblk m c 3 t)
    (V m c (Pipeline.arrRef spec0 0)) (V m c (Pipeline.arrRef spec0 1)) (V m c (Pipeline.arrRef spec0 2))
    (V m c (Pipeline.arrRef spec0 3))
    (fun p k r hr => src_block_read t (V m c (Pipeline.arrRef spec0 0)) p k r hr)
    (fun p k r hr => dst_block_read t (V m c (Pipeline.arrRef spec0 1)) p k r hr)
    (fun q k => weight_block_read t (V m c (Pipeline.arrRef spec0 2)) q k)
    (fun q => bias_block_read t (V m c (Pipeline.arrRef spec0 3)) q) j

/-- An index of the result array lies in point `t`'s block iff each coordinate lies in the block's range. -/
theorem mem_block (t : Fin cfg0.N) (i : S1600000x48.Idx) :
    i ∈ ((cfg0.win 4).blk t).view.set ↔ ∀ a : Fin 2, win0_4.index t a * S8000x48.size a ≤ (i a).val ∧ (i a).val < win0_4.index t a * S8000x48.size a + S8000x48.size a := by
  show i ∈ ((View.whole main_v37).slice (win0_4.rect t)).set ↔ _
  rw [View.set_slice_whole, Rect.mem_set_unit]
  exact Iff.rfl

/-- Every row lies in some point's block: row `r` in the block of point `r / 8000`. -/
theorem covered (i : S1600000x48.Idx) :
    ∃ t : Fin cfg0.N, (cfg0.win 4).flush t = true ∧ i ∈ ((cfg0.win 4).blk t).view.set := by
  have hi0 : (i 0).val < 1600000 := (i 0).isLt
  have hi1 : (i 1).val < 48 := (i 1).isLt
  have hN : cfg0.N = 200 := N_0
  have ht : (i 0).val / 8000 < cfg0.N := by rw [hN]; omega
  obtain ⟨e40, e41, -⟩ := block_indices ⟨(i 0).val / 8000, ht⟩
  refine ⟨⟨(i 0).val / 8000, ht⟩, flush0_4 _, ?_⟩
  rw [mem_block]
  intro a
  match a with
  | ⟨0, _⟩ =>
    show win0_4.index ⟨(i 0).val / 8000, ht⟩ (0 : Fin 2) * 8000 ≤ (i 0).val ∧ (i 0).val < win0_4.index ⟨(i 0).val / 8000, ht⟩ (0 : Fin 2) * 8000 + 8000
    rw [e40]; show (i 0).val / 8000 * 8000 ≤ (i 0).val ∧ (i 0).val < (i 0).val / 8000 * 8000 + 8000; omega
  | ⟨1, _⟩ =>
    show win0_4.index ⟨(i 0).val / 8000, ht⟩ (1 : Fin 2) * 48 ≤ (i 1).val ∧ (i 1).val < win0_4.index ⟨(i 0).val / 8000, ht⟩ (1 : Fin 2) * 48 + 48
    rw [e41]; omega

/-- After the run the result array is `result`. -/
theorem final (c : Dev nD) : (dats m 0 c).arrAt 4 cfg0.N = result m c :=
  (dats m 0 c).arrAt_eq_of_cover 4 (result m c) (fun t _ => flushed_eq m c t) covered

/-- The kernel's run: the result array at `result`, the arguments unchanged. -/
theorem run : θ_run defs (onTc (τ := τ) (main (F := Ideal))) ⟨m, fun _ => 0, ρ⟩ fun r => ∀ c : Dev nD,
      r.2.mem ((c : Thread nD τ).loc main_v37) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.HostArrays.lean ====
/-
  The two gathered arrays the kernel is handed are the reference's two gathered arrays.

  Before the kernel runs, the program around it computes, with the same operations on the same arguments as the
  reference, each node's mean in-edge feature and then, per node, the sum over its in-edges of the source nodes' means
  (the node features `h`); it changes `h` to a shorter float format — the identity over the extended reals — and
  gathers rows of `h` at the edges' sources and at the edges' targets. The reference gathers the same rows of the
  same `h`. So each of the two arrays, as a term of the argument arrays, is the reference's term for its own gather.
  The chain of scatter-adds, the quotient and the gathers is never opened: once the format change is dropped and the
  two programs' copies of the dimension records are identified, the two terms are the same term.
-/
import proofs.«109166_j27986006901492_1_alg».proof.Proof.Gen.KernelIdeal.Frame
import proofs.«109166_j27986006901492_1_alg».proof.Proof.Gen.ReferenceIdeal.Read
import Idealize.ShloMosaic.Lib.StableHlo.Run

noncomputable section

namespace Cert.KernelIdeal.HostArrays

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- A change of float format is the identity on the extended reals. -/
theorem truncf_id {s : Shape} (a : FVec Ideal s .f32) (h : FTy.bits .bf16 < FTy.bits .f32) :
    (truncf .bf16 a h : s.Idx → EReal) = a := rfl

/-! The two programs print their own copies of the gather's and the scatters' dimension numbers; they are the same
    records. -/
theorem gather_dims_eq : gather_S50000x48_S1600000x1_S1600000x48_1_0_n_n_0_1_148
    = Cert.ReferenceIdeal.gather_S50000x48_S1600000x1_S1600000x48_1_0_n_n_0_1_148 := rfl
theorem scatter_rows_dims_eq : scatter_S50000x48_S1600000x1_S1600000x48_1_0_0_1
    = Cert.ReferenceIdeal.scatter_S50000x48_S1600000x1_S1600000x48_1_0_0_1 := rfl
theorem scatter_count_dims_eq : scatter_S50000_S1600000x1_S1600000_n_0_0_1
    = Cert.ReferenceIdeal.scatter_S50000_S1600000x1_S1600000_n_0_0_1 := rfl

set_option maxRecDepth 8192 in
set_option maxHeartbeats 2000000 in
/-- The array gathered at the edges' sources is the reference's gather at the sources. -/
theorem srcRows_eq (c : Dev nD) :
    (V m c main_v29 : S1600000x48.Idx → EReal)
      = Cert.ReferenceIdeal.Read.val_main_v28 (F := Ideal) (m ((c : Thread nD τ).loc main_arg0))
          (m ((c : Thread nD τ).loc main_arg1)) (m ((c : Thread nD τ).loc main_arg2)) := by
  show StableHlo.after hostOps0 (fun b => m (c, b)) (Proc.devRef .tc main_v29) = _
  after_results_simp
  rw [truncf_id, gather_dims_eq, scatter_rows_dims_eq, scatter_count_dims_eq]
  unfold
    Cert.ReferenceIdeal.Read.val_main_v28 Cert.ReferenceIdeal.Read.val_main_v27 Cert.ReferenceIdeal.Read.val_main_v26
    Cert.ReferenceIdeal.Read.val_main_v25 Cert.ReferenceIdeal.Read.val_main_v24 Cert.ReferenceIdeal.Read.val_main_c_6
    Cert.ReferenceIdeal.Read.val_main_v23 Cert.ReferenceIdeal.Read.val_main_v22 Cert.ReferenceIdeal.Read.val_main_c_5
    Cert.ReferenceIdeal.Read.val_main_v21 Cert.ReferenceIdeal.Read.val_main_v20 Cert.ReferenceIdeal.Read.val_main_v19
    Cert.ReferenceIdeal.Read.val_main_cst_4 Cert.ReferenceIdeal.Read.val_main_v18
    Cert.ReferenceIdeal.Read.val_main_v17 Cert.ReferenceIdeal.Read.val_main_v16 Cert.ReferenceIdeal.Read.val_main_v15
    Cert.ReferenceIdeal.Read.val_main_v14 Cert.ReferenceIdeal.Read.val_main_c_3 Cert.ReferenceIdeal.Read.val_main_v13
    Cert.ReferenceIdeal.Read.val_main_v12 Cert.ReferenceIdeal.Read.val_main_c Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_cst_2 Cert.ReferenceIdeal.Read.val_main_v6
    Cert.ReferenceIdeal.Read.val_main_v5 Cert.ReferenceIdeal.Read.val_main_v4 Cert.ReferenceIdeal.Read.val_main_cst_1
    Cert.ReferenceIdeal.Read.val_main_v3 Cert.ReferenceIdeal.Read.val_main_v2 Cert.ReferenceIdeal.Read.val_main_v1
    Cert.ReferenceIdeal.Read.val_main_cst_0 Cert.ReferenceIdeal.Read.val_main_v0 Cert.ReferenceIdeal.Read.val_main_cst
  with_reducible rfl

set_option maxRecDepth 8192 in
set_option maxHeartbeats 2000000 in
/-- The array gathered at the edges' targets is the reference's gather at the targets. -/
theorem dstRows_eq (c : Dev nD) :
    (V m c main_v36 : S1600000x48.Idx → EReal)
      = Cert.ReferenceIdeal.Read.val_main_v35 (F := Ideal) (m ((c : Thread nD τ).loc main_arg0))
          (m ((c : Thread nD τ).loc main_arg1)) (m ((c : Thread nD τ).loc main_arg2)) := by
  show StableHlo.after hostOps0 (fun b => m (c, b)) (Proc.devRef .tc main_v36) = _
  after_results_simp
  rw [truncf_id, gather_dims_eq, scatter_rows_dims_eq, scatter_count_dims_eq]
  unfold
    Cert.ReferenceIdeal.Read.val_main_v35 Cert.ReferenceIdeal.Read.val_main_v34 Cert.ReferenceIdeal.Read.val_main_v33
    Cert.ReferenceIdeal.Read.val_main_v32 Cert.ReferenceIdeal.Read.val_main_v31 Cert.ReferenceIdeal.Read.val_main_c_8
    Cert.ReferenceIdeal.Read.val_main_v30 Cert.ReferenceIdeal.Read.val_main_v29 Cert.ReferenceIdeal.Read.val_main_c_7
    Cert.ReferenceIdeal.Read.val_main_v21 Cert.ReferenceIdeal.Read.val_main_v20 Cert.ReferenceIdeal.Read.val_main_v19
    Cert.ReferenceIdeal.Read.val_main_cst_4 Cert.ReferenceIdeal.Read.val_main_v18
    Cert.ReferenceIdeal.Read.val_main_v17 Cert.ReferenceIdeal.Read.val_main_v16 Cert.ReferenceIdeal.Read.val_main_v15
    Cert.ReferenceIdeal.Read.val_main_v14 Cert.ReferenceIdeal.Read.val_main_c_3 Cert.ReferenceIdeal.Read.val_main_v13
    Cert.ReferenceIdeal.Read.val_main_v12 Cert.ReferenceIdeal.Read.val_main_c Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_cst_2 Cert.ReferenceIdeal.Read.val_main_v6
    Cert.ReferenceIdeal.Read.val_main_v5 Cert.ReferenceIdeal.Read.val_main_v4 Cert.ReferenceIdeal.Read.val_main_cst_1
    Cert.ReferenceIdeal.Read.val_main_v3 Cert.ReferenceIdeal.Read.val_main_v2 Cert.ReferenceIdeal.Read.val_main_v1
    Cert.ReferenceIdeal.Read.val_main_cst_0 Cert.ReferenceIdeal.Read.val_main_v0 Cert.ReferenceIdeal.Read.val_main_cst
  with_reducible rfl

end Cert.KernelIdeal.HostArrays

end
-- ==== Proof.RefEntry.lean ====
/-
  The reference's result, entry by entry.

  The reference ends with `½ · (A + B)`, a `dot_general` against the transposed weight, and the bias broadcast over
  the rows, where `A` and `B` are its two gathers of the node features (at the edges' sources and targets). Read at
  entry `(e, o)`, the product is the sum over the 48 features `k` of `(½ · (A[e,k] + B[e,k])) · Wᵀ[k,o]`, and
  `Wᵀ[k,o] = W[o,k]`: this is `EdgeLinear.entry` with the factor ½ on the other side of the mean.
-/
import proofs.«109166_j27986006901492_1_alg».proof.Proof.Gen.ReferenceIdeal.Read
import proofs.«109166_j27986006901492_1_alg».proof.Proof.EdgeLinear

noncomputable section

namespace Cert.ReferenceIdeal.RefEntry

open Cert.ReferenceIdeal Cert.ReferenceIdeal.Gen Cert.ReferenceIdeal.Read Idealize.ShloMosaic Idealize.ShloMosaic.ValueIdx
open Cert.EdgeLinear

/-- The left operand of the product is read at the output's row and the contracted feature. -/
theorem lidx_eq (e : Fin 1600000) (o k : Fin 48) : lidx_main_v40 (ix2 e o) k = ix2 e k :=
  funext fun a => Fin.ext (by match a with | ⟨0, _⟩ => rfl | ⟨1, _⟩ => rfl)

/-- The transposed weight at `(k, o)` is the weight at `(o, k)`. -/
theorem ridx_eq (e : Fin 1600000) (o k : Fin 48) : idx_main_v39 (ridx_main_v40 (ix2 e o) k) = ix2 o k :=
  funext fun a => Fin.ext (by match a with | ⟨0, _⟩ => rfl | ⟨1, _⟩ => rfl)

/-- The bias is broadcast along the rows: entry `(e, o)` reads bias entry `o`. -/
theorem bidx_eq (e : Fin 1600000) (o : Fin 48) : idx_main_v41 (idx_main_v42 (ix2 e o)) = ix1 o :=
  funext fun a => Fin.ext (by match a with | ⟨0, _⟩ => rfl)

/-- The reference's result is `EdgeLinear.whole` of its two gathered arrays, the weight and the bias. -/
theorem result_eq (x0 : (⟨S1600000x48, .f32⟩ : BufTy).Contents (Elt Ideal)) (x1 x2 : (⟨S1600000, .i32⟩ : BufTy).Contents (Elt Ideal))
    (x3 : (⟨S48x48, .f32⟩ : BufTy).Contents (Elt Ideal)) (x4 : (⟨S48, .f32⟩ : BufTy).Contents (Elt Ideal)) :
    val_main_v43 (F := Ideal) x0 x1 x2 x3 x4
      = whole (val_main_v28 (F := Ideal) x0 x1 x2) (val_main_v35 (F := Ideal) x0 x1 x2) x3 x4 := by
  funext i
  obtain ⟨e, o, rfl⟩ : ∃ (e : Fin 1600000) (o : Fin 48), i = ix2 e o := ⟨i 0, i 1, eq_ix2 i⟩
  rw [val_main_v43_apply, val_main_v40_apply, val_main_v42_apply, val_main_v41_apply, whole_apply, bidx_eq]
  refine Eq.trans ?_ (entry_half_left _ _ _ _)
  refine congrArg (· + x4 (ix1 o)) (Finset.sum_congr rfl fun k _ => ?_)
  rw [val_main_v39_apply, ridx_eq, lidx_eq, val_main_v38_apply, val_main_v37_apply, val_main_cst_9_apply, val_main_v36_apply]
  rfl

end Cert.ReferenceIdeal.RefEntry

end
-- ==== Proof.lean ====
/-
  The kernel against its reference, over the extended reals.

  Both programs first compute, with the same operations on the same arguments, the node features `h` (each node's
  mean in-edge feature, then per node the sum over its in-edges of the source nodes' means) and gather rows of `h` at
  every edge's source and target. From the two gathered arrays `A`, `B`, the weight `W` and the bias `b` both end at
      out[e, o] = Σ_k ((A[e, k] + B[e, k]) · ½) · W[o, k] + b[o]        (`EdgeLinear.whole`):
  the kernel tile by tile with its matrix product contracting the feature axis of both operands (`TilePayload`,
  `KernelWhole`), the reference as `½ · (A + B)` times the transposed weight (`RefEntry`); the two forms differ by the
  commutativity of one product of extended reals. The gathered arrays are the same terms of the arguments in both
  programs (`HostArrays`), the kernel's change of float format being the identity. No step uses that the inputs are
  finite. The three frames are the generated frame runs; the idealization rewrote nothing, so `preserves` is trivial.
-/
import proofs.«109166_j27986006901492_1_alg».proof.Defs
import proofs.«109166_j27986006901492_1_alg».proof.Proof.Gen.Kernel
import proofs.«109166_j27986006901492_1_alg».proof.Proof.Gen.Kernel.Skeleton
import proofs.«109166_j27986006901492_1_alg».proof.Proof.Gen.Kernel.Launch
import proofs.«109166_j27986006901492_1_alg».proof.Proof.Gen.Kernel.Points
import proofs.«109166_j27986006901492_1_alg».proof.Proof.Gen.Kernel.Frame
import proofs.«109166_j27986006901492_1_alg».proof.Proof.Gen.KernelIdeal
import proofs.«109166_j27986006901492_1_alg».proof.Proof.Gen.KernelIdeal.Skeleton
import proofs.«109166_j27986006901492_1_alg».proof.Proof.Gen.KernelIdeal.Launch
import proofs.«109166_j27986006901492_1_alg».proof.Proof.Gen.KernelIdeal.Points
import proofs.«109166_j27986006901492_1_alg».proof.Proof.Gen.KernelIdeal.Frame
import proofs.«109166_j27986006901492_1_alg».proof.Proof.Gen.ReferenceIdeal
import proofs.«109166_j27986006901492_1_alg».proof.Proof.Gen.KernelIdeal.Value
import proofs.«109166_j27986006901492_1_alg».proof.Proof.Gen.ReferenceIdeal.Run
import proofs.«109166_j27986006901492_1_alg».proof.Proof.Gen.ReferenceIdeal.Read
import proofs.«109166_j27986006901492_1_alg».proof.Proof.Gen.Pre_finite_inputs
import proofs.«109166_j27986006901492_1_alg».proof.Proof.EdgeLinear
import proofs.«109166_j27986006901492_1_alg».proof.Proof.KernelWhole
import proofs.«109166_j27986006901492_1_alg».proof.Proof.HostArrays
import proofs.«109166_j27986006901492_1_alg».proof.Proof.RefEntry
import Idealize.ShloMosaic.Adequacy
import Idealize.ShloMosaic.Init

noncomputable section

namespace Cert.Proof

open Idealize.ShloMosaic Idealize.ShloMosaic.TcCoe Idealize.SL.Sem

/-- The kernel's result, a function of the arrays as the kernel finds them, is `EdgeLinear.whole` of the REFERENCE's
    two gathers of the argument arrays, the weight and the bias: the gathered arrays by `HostArrays`, the weight and
    the bias because nothing before the kernel writes them. -/
theorem kernel_result_eq (m : (ℓ : Loc Cert.KernelIdeal.nD Cert.KernelIdeal.τ Cert.KernelIdeal.sig) → Buf (Elt Ideal) ℓ)
    (c : Dev Cert.KernelIdeal.nD) :
    Cert.KernelIdeal.Whole.result m c
      = Cert.EdgeLinear.whole
          (Cert.ReferenceIdeal.Read.val_main_v28 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1))
            (m ((c : Thread Cert.KernelIdeal.nD Cert.KernelIdeal.τ).loc Cert.KernelIdeal.main_arg2)))
          (Cert.ReferenceIdeal.Read.val_main_v35 (F := Ideal)
            (m ((c : Thread Cert.KernelIdeal.nD Cert.KernelIdeal.τ).loc Cert.KernelIdeal.main_arg0))
            (m ((c : Thread Cert.KernelIdeal.nD Cert.KernelIdeal.τ).loc Cert.KernelIdeal.main_arg1))
            (m ((c : Thread Cert.KernelIdeal.nD Cert.KernelIdeal.τ).loc Cert.KernelIdeal.main_arg2)))
          (m ((c : Thread Cert.KernelIdeal.nD Cert.KernelIdeal.τ).loc Cert.KernelIdeal.main_arg3))
          (m ((c : Thread Cert.KernelIdeal.nD Cert.KernelIdeal.τ).loc Cert.KernelIdeal.main_arg4)) := by
  have hA := Cert.KernelIdeal.HostArrays.srcRows_eq m c
  have hB := Cert.KernelIdeal.HostArrays.dstRows_eq m c
  have hW := Cert.KernelIdeal.Gen.V_main_arg3 m c
  have hb := Cert.KernelIdeal.Gen.V_main_arg4 m c
  show Cert.EdgeLinear.whole (Cert.KernelIdeal.Gen.V m c Cert.KernelIdeal.main_v29) (Cert.KernelIdeal.Gen.V m c Cert.KernelIdeal.main_v36)
    (Cert.KernelIdeal.Gen.V m c Cert.KernelIdeal.main_arg3) (Cert.KernelIdeal.Gen.V m c Cert.KernelIdeal.main_arg4) = _
  rw [hA, hB, hW, hb]

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with `EdgeLinear.whole` of the same two gathered
    arrays, the same weight and the same bias. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.RefEntry.result_eq,
    (hagree c).1, (hagree c).2.1, (hagree c).2.2.1, (hagree c).2.2.2.1, (hagree c).2.2.2.2]
  exact (kernel_result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
